-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768 : Shape := ⟨1, ![32768]⟩
abbrev S8x512x512 : Shape := ⟨3, ![8, 512, 512]⟩
abbrev S8x512 : Shape := ⟨2, ![8, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S32768x512 .f32) (main_arg1 : IVec S32768 32) (main_arg2 : FVec F S8x512x512 .f32) (main_arg3 : FVec F S8x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S8x512x512 .f32 := Host.absf main_arg2
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512 .f32 := Host.absf main_arg3
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S32768x512 : Shape := ⟨2, ![32768, 512]⟩
abbrev S32768 : Shape := ⟨1, ![32768]⟩
abbrev S8x512x512 : Shape := ⟨3, ![8, 512, 512]⟩
abbrev S8x512 : Shape := ⟨2, ![8, 512]⟩
abbrev S32768x1 : Shape := ⟨2, ![32768, 1]⟩
abbrev S2048x512 : Shape := ⟨2, ![2048, 512]⟩
abbrev S2048x1 : Shape := ⟨2, ![2048, 1]⟩
abbrev S2048x8 : Shape := ⟨2, ![2048, 8]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 7
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S8x512x512, .f32⟩
  | .hbm, ⟨3, _⟩ => ⟨S8x512, .f32⟩
  | .hbm, ⟨4, _⟩ => ⟨S32768x1, .i32⟩
  | .hbm, ⟨5, _⟩ => ⟨S8x512x512, .bf16⟩
  | .hbm, ⟨6, _⟩ => ⟨S32768x512, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S8x512x512, .bf16⟩
  | .local _ .vmem, ⟨5, _⟩ => ⟨S8x512, .f32⟩
  | .local _ .vmem, ⟨6, _⟩ => ⟨S2048x512, .f32⟩
  | .local _ .vmem, ⟨7, _⟩ => ⟨S2048x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32768_S32768x1 : S32768.ShapeCasts S32768x1
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x8_d1_w32 : S2048x8.Iotas .tc 32 [1]
  broadcasts_S2048x1_S2048x8 : S2048x1.Broadcasts S2048x8
  natLt_1_32 : 1 < 32
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  broadcasts_S1x512_S2048x512 : S1x512.Broadcasts S2048x512
  slices_S2048x8_o0_0_S2048x1 : S2048x8.Slices ![0, 0] S2048x1
  broadcasts_S2048x1_S2048x512 : S2048x1.Broadcasts S2048x512
  inb_S8x512x512_S1x512x512_1_0_0 : ∀ a, (![1, 0, 0] : Fin 3 → Nat) a + S1x512x512.size a ≤ S8x512x512.size a
  inb_S8x512_S1x512_1_0 : ∀ a, (![1, 0] : Fin 2 → Nat) a + S1x512.size a ≤ S8x512.size a
  slices_S2048x8_o0_1_S2048x1 : S2048x8.Slices ![0, 1] S2048x1
  inb_S8x512x512_S1x512x512_2_0_0 : ∀ a, (![2, 0, 0] : Fin 3 → Nat) a + S1x512x512.size a ≤ S8x512x512.size a
  inb_S8x512_S1x512_2_0 : ∀ a, (![2, 0] : Fin 2 → Nat) a + S1x512.size a ≤ S8x512.size a
  slices_S2048x8_o0_2_S2048x1 : S2048x8.Slices ![0, 2] S2048x1
  inb_S8x512x512_S1x512x512_3_0_0 : ∀ a, (![3, 0, 0] : Fin 3 → Nat) a + S1x512x512.size a ≤ S8x512x512.size a
  inb_S8x512_S1x512_3_0 : ∀ a, (![3, 0] : Fin 2 → Nat) a + S1x512.size a ≤ S8x512.size a
  slices_S2048x8_o0_3_S2048x1 : S2048x8.Slices ![0, 3] S2048x1
  inb_S8x512x512_S1x512x512_4_0_0 : ∀ a, (![4, 0, 0] : Fin 3 → Nat) a + S1x512x512.size a ≤ S8x512x512.size a
  inb_S8x512_S1x512_4_0 : ∀ a, (![4, 0] : Fin 2 → Nat) a + S1x512.size a ≤ S8x512.size a
  slices_S2048x8_o0_4_S2048x1 : S2048x8.Slices ![0, 4] S2048x1
  inb_S8x512x512_S1x512x512_5_0_0 : ∀ a, (![5, 0, 0] : Fin 3 → Nat) a + S1x512x512.size a ≤ S8x512x512.size a
  inb_S8x512_S1x512_5_0 : ∀ a, (![5, 0] : Fin 2 → Nat) a + S1x512.size a ≤ S8x512.size a
  slices_S2048x8_o0_5_S2048x1 : S2048x8.Slices ![0, 5] S2048x1
  inb_S8x512x512_S1x512x512_6_0_0 : ∀ a, (![6, 0, 0] : Fin 3 → Nat) a + S1x512x512.size a ≤ S8x512x512.size a
  inb_S8x512_S1x512_6_0 : ∀ a, (![6, 0] : Fin 2 → Nat) a + S1x512.size a ≤ S8x512.size a
  slices_S2048x8_o0_6_S2048x1 : S2048x8.Slices ![0, 6] S2048x1
  inb_S8x512x512_S1x512x512_7_0_0 : ∀ a, (![7, 0, 0] : Fin 3 → Nat) a + S1x512x512.size a ≤ S8x512x512.size a
  inb_S8x512_S1x512_7_0 : ∀ a, (![7, 0] : Fin 2 → Nat) a + S1x512.size a ≤ S8x512.size a
  slices_S2048x8_o0_7_S2048x1 : S2048x8.Slices ![0, 7] S2048x1
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S32768x1.size a
  hwx0_1 : ∀ i : grid0.Coords, EltTy.bits .i32 = 32 ∨ (Rect.block (s := S32768x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512x512.size a ≤ S8x512x512.size a
  hwx0_2 : ∀ i : grid0.Coords, EltTy.bits .bf16 = 32 ∨ (Rect.block (s := S8x512x512) S8x512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x512.size a
  hwx0_3 : ∀ i : grid0.Coords, EltTy.bits .f32 = 32 ∨ (Rect.block (s := S8x512) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S32768x512.size a
  hwx0_4 : ∀ i : grid0.Coords, EltTy.bits .f32 = 32 ∨ (Rect.block (s := S32768x512) S2048x512.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768 : Shape := ⟨1, ![32768]⟩
abbrev S8x512x512 : Shape := ⟨3, ![8, 512, 512]⟩
abbrev S8x512 : Shape := ⟨2, ![8, 512]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S32768x1 : Shape := ⟨2, ![32768, 1]⟩

abbrev nBuf : Space → Nat
  | .hbm => 142
  | .vmem => 0
  | .smem => 0
  | _ => 0

abbrev hbmTy0_0 (i : Nat) : BufTy := match i % 128 with
  | 0 => ⟨S32768x512, .f32⟩
  | 1 => ⟨S32768, .i32⟩
  | 2 => ⟨S8x512x512, .f32⟩
  | 3 => ⟨S8x512, .f32⟩
  | 4 => ⟨S_, .f32⟩
  | 5 => ⟨S32768x512, .f32⟩
  | 6 => ⟨S1x512x512, .f32⟩
  | 7 => ⟨S512x512, .f32⟩
  | 8 => ⟨S32768x512, .f32⟩
  | 9 => ⟨S1x512, .f32⟩
  | 10 => ⟨S512, .f32⟩
  | 11 => ⟨S1x512, .f32⟩
  | 12 => ⟨S32768x512, .f32⟩
  | 13 => ⟨S32768x512, .f32⟩
  | 14 => ⟨S_, .i32⟩
  | 15 => ⟨S32768, .i32⟩
  | 16 => ⟨S32768, .i1⟩
  | 17 => ⟨S32768x1, .i1⟩
  | 18 => ⟨S_, .f32⟩
  | 19 => ⟨S32768x512, .f32⟩
  | 20 => ⟨S32768x512, .i1⟩
  | 21 => ⟨S32768x512, .f32⟩
  | 22 => ⟨S32768x512, .f32⟩
  | 23 => ⟨S1x512x512, .f32⟩
  | 24 => ⟨S512x512, .f32⟩
  | 25 => ⟨S32768x512, .f32⟩
  | 26 => ⟨S1x512, .f32⟩
  | 27 => ⟨S512, .f32⟩
  | 28 => ⟨S1x512, .f32⟩
  | 29 => ⟨S32768x512, .f32⟩
  | 30 => ⟨S32768x512, .f32⟩
  | 31 => ⟨S_, .i32⟩
  | 32 => ⟨S32768, .i32⟩
  | 33 => ⟨S32768, .i1⟩
  | 34 => ⟨S32768x1, .i1⟩
  | 35 => ⟨S_, .f32⟩
  | 36 => ⟨S32768x512, .f32⟩
  | 37 => ⟨S32768x512, .i1⟩
  | 38 => ⟨S32768x512, .f32⟩
  | 39 => ⟨S32768x512, .f32⟩
  | 40 => ⟨S1x512x512, .f32⟩
  | 41 => ⟨S512x512, .f32⟩
  | 42 => ⟨S32768x512, .f32⟩
  | 43 => ⟨S1x512, .f32⟩
  | 44 => ⟨S512, .f32⟩
  | 45 => ⟨S1x512, .f32⟩
  | 46 => ⟨S32768x512, .f32⟩
  | 47 => ⟨S32768x512, .f32⟩
  | 48 => ⟨S_, .i32⟩
  | 49 => ⟨S32768, .i32⟩
  | 50 => ⟨S32768, .i1⟩
  | 51 => ⟨S32768x1, .i1⟩
  | 52 => ⟨S_, .f32⟩
  | 53 => ⟨S32768x512, .f32⟩
  | 54 => ⟨S32768x512, .i1⟩
  | 55 => ⟨S32768x512, .f32⟩
  | 56 => ⟨S32768x512, .f32⟩
  | 57 => ⟨S1x512x512, .f32⟩
  | 58 => ⟨S512x512, .f32⟩
  | 59 => ⟨S32768x512, .f32⟩
  | 60 => ⟨S1x512, .f32⟩
  | 61 => ⟨S512, .f32⟩
  | 62 => ⟨S1x512, .f32⟩
  | 63 => ⟨S32768x512, .f32⟩
  | 64 => ⟨S32768x512, .f32⟩
  | 65 => ⟨S_, .i32⟩
  | 66 => ⟨S32768, .i32⟩
  | 67 => ⟨S32768, .i1⟩
  | 68 => ⟨S32768x1, .i1⟩
  | 69 => ⟨S_, .f32⟩
  | 70 => ⟨S32768x512, .f32⟩
  | 71 => ⟨S32768x512, .i1⟩
  | 72 => ⟨S32768x512, .f32⟩
  | 73 => ⟨S32768x512, .f32⟩
  | 74 => ⟨S1x512x512, .f32⟩
  | 75 => ⟨S512x512, .f32⟩
  | 76 => ⟨S32768x512, .f32⟩
  | 77 => ⟨S1x512, .f32⟩
  | 78 => ⟨S512, .f32⟩
  | 79 => ⟨S1x512, .f32⟩
  | 80 => ⟨S32768x512, .f32⟩
  | 81 => ⟨S32768x512, .f32⟩
  | 82 => ⟨S_, .i32⟩
  | 83 => ⟨S32768, .i32⟩
  | 84 => ⟨S32768, .i1⟩
  | 85 => ⟨S32768x1, .i1⟩
  | 86 => ⟨S_, .f32⟩
  | 87 => ⟨S32768x512, .f32⟩
  | 88 => ⟨S32768x512, .i1⟩
  | 89 => ⟨S32768x512, .f32⟩
  | 90 => ⟨S32768x512, .f32⟩
  | 91 => ⟨S1x512x512, .f32⟩
  | 92 => ⟨S512x512, .f32⟩
  | 93 => ⟨S32768x512, .f32⟩
  | 94 => ⟨S1x512, .f32⟩
  | 95 => ⟨S512, .f32⟩
  | 96 => ⟨S1x512, .f32⟩
  | 97 => ⟨S32768x512, .f32⟩
  | 98 => ⟨S32768x512, .f32⟩
  | 99 => ⟨S_, .i32⟩
  | 100 => ⟨S32768, .i32⟩
  | 101 => ⟨S32768, .i1⟩
  | 102 => ⟨S32768x1, .i1⟩
  | 103 => ⟨S_, .f32⟩
  | 104 => ⟨S32768x512, .f32⟩
  | 105 => ⟨S32768x512, .i1⟩
  | 106 => ⟨S32768x512, .f32⟩
  | 107 => ⟨S32768x512, .f32⟩
  | 108 => ⟨S1x512x512, .f32⟩
  | 109 => ⟨S512x512, .f32⟩
  | 110 => ⟨S32768x512, .f32⟩
  | 111 => ⟨S1x512, .f32⟩
  | 112 => ⟨S512, .f32⟩
  | 113 => ⟨S1x512, .f32⟩
  | 114 => ⟨S32768x512, .f32⟩
  | 115 => ⟨S32768x512, .f32⟩
  | 116 => ⟨S_, .i32⟩
  | 117 => ⟨S32768, .i32⟩
  | 118 => ⟨S32768, .i1⟩
  | 119 => ⟨S32768x1, .i1⟩
  | 120 => ⟨S_, .f32⟩
  | 121 => ⟨S32768x512, .f32⟩
  | 122 => ⟨S32768x512, .i1⟩
  | 123 => ⟨S32768x512, .f32⟩
  | 124 => ⟨S32768x512, .f32⟩
  | 125 => ⟨S1x512x512, .f32⟩
  | 126 => ⟨S512x512, .f32⟩
  | 127 => ⟨S32768x512, .f32⟩
  | _ => ⟨S32768x512, .f32⟩

abbrev hbmTy0_1 (i : Nat) : BufTy := match i % 128 with
  | 0 => ⟨S1x512, .f32⟩
  | 1 => ⟨S512, .f32⟩
  | 2 => ⟨S1x512, .f32⟩
  | 3 => ⟨S32768x512, .f32⟩
  | 4 => ⟨S32768x512, .f32⟩
  | 5 => ⟨S_, .i32⟩
  | 6 => ⟨S32768, .i32⟩
  | 7 => ⟨S32768, .i1⟩
  | 8 => ⟨S32768x1, .i1⟩
  | 9 => ⟨S_, .f32⟩
  | 10 => ⟨S32768x512, .f32⟩
  | 11 => ⟨S32768x512, .i1⟩
  | 12 => ⟨S32768x512, .f32⟩
  | 13 => ⟨S32768x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_call1_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_call2_v0 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_call3_v0 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_7 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_call4_v0 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_9 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_10 : Ref sig .tc := ⟨.hbm, 103, rfl⟩
abbrev main_v82 : Ref sig .tc := ⟨.hbm, 104, rfl⟩
abbrev main_call5_v0 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_c_11 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_12 : Ref sig .tc := ⟨.hbm, 120, rfl⟩
abbrev main_v96 : Ref sig .tc := ⟨.hbm, 121, rfl⟩
abbrev main_call6_v0 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_c_13 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_14 : Ref sig .tc := ⟨.hbm, 137, rfl⟩
abbrev main_v110 : Ref sig .tc := ⟨.hbm, 138, rfl⟩
abbrev main_call7_v0 : Ref sig .tc := ⟨.hbm, 139, rfl⟩
abbrev main_v111 : Ref sig .tc := ⟨.hbm, 140, rfl⟩
abbrev main_v112 : Ref sig .tc := ⟨.hbm, 141, rfl⟩

abbrev nD : Nat := 1
abbrev τ : Topo := Topo.v7x

variable {F : FTy → Type} [FloatOps F]

class Facts₀ : Prop where
  bcast_S_S32768x512 : S_.BroadcastsInDim S32768x512 (![] : Fin 0 → Fin S32768x512.rank)
  slices_S8x512x512_S1x512x512_0_0_0 : S8x512x512.Slices ![0, 0, 0] S1x512x512
  shapeCasts_S1x512x512_S512x512 : S1x512x512.ShapeCasts S512x512
  slices_S8x512_S1x512_0_0 : S8x512.Slices ![0, 0] S1x512
  shapeCasts_S1x512_S512 : S1x512.ShapeCasts S512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x512_0_1 : S32768x1.BroadcastsInDim S32768x512 (![0, 1] : Fin 2 → Fin S32768x512.rank)
  slices_S8x512x512_S1x512x512_1_0_0 : S8x512x512.Slices ![1, 0, 0] S1x512x512
  slices_S8x512_S1x512_1_0 : S8x512.Slices ![1, 0] S1x512
  slices_S8x512x512_S1x512x512_2_0_0 : S8x512x512.Slices ![2, 0, 0] S1x512x512
  slices_S8x512_S1x512_2_0 : S8x512.Slices ![2, 0] S1x512
  slices_S8x512x512_S1x512x512_3_0_0 : S8x512x512.Slices ![3, 0, 0] S1x512x512
  slices_S8x512_S1x512_3_0 : S8x512.Slices ![3, 0] S1x512
  slices_S8x512x512_S1x512x512_4_0_0 : S8x512x512.Slices ![4, 0, 0] S1x512x512
  slices_S8x512_S1x512_4_0 : S8x512.Slices ![4, 0] S1x512
  slices_S8x512x512_S1x512x512_5_0_0 : S8x512x512.Slices ![5, 0, 0] S1x512x512
  slices_S8x512_S1x512_5_0 : S8x512.Slices ![5, 0] S1x512
  slices_S8x512x512_S1x512x512_6_0_0 : S8x512x512.Slices ![6, 0, 0] S1x512x512
  slices_S8x512_S1x512_6_0 : S8x512.Slices ![6, 0] S1x512
  slices_S8x512x512_S1x512x512_7_0_0 : S8x512x512.Slices ![7, 0, 0] S1x512x512
  slices_S8x512_S1x512_7_0 : S8x512.Slices ![7, 0] S1x512
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.Routed.lean ====
/-
  Routing each row to one of eight affine maps: the result as ONE function of the arrays.

  A row `r` of `x` carries a selector word `sel r`. Expert `e` sends the row to `x[r, ·] · w[e] + b[e]`; the result
  keeps expert `e`'s value where the selector is `e` and zero elsewhere, and the eight kept terms are added to zero
  in the order 0, 1, …, 7. A row whose selector is none of 0 … 7 gets zero, a property of the sum, not an assumption.

  Two programs reach one kept term in two ways: one multiplies the expert's value by the indicator of "selector = e"
  made a number (1 or 0); the other selects between the value and zero on the same comparison. On the extended reals
  `1 · y = y` and `0 · y = 0` for EVERY `y`, the infinities included, so the two agree with no finiteness asked.
-/
import Idealize.ShloMosaic.Lib.ValueIdx
import Idealize.ShloMosaic.PureOps.Ideal

noncomputable section

open scoped BigOperators

namespace Routed

open Idealize.ShloMosaic Idealize.ShloMosaic.ValueIdx

/-- Expert `e`'s affine map at row `r`, column `o`: `Σ_k x[r, k] · w[e, k, o] + b[e, o]`. -/
def affine {M : Nat} (x : (⟨2, ![M, 512]⟩ : Shape).Idx → EReal) (w : (⟨3, ![8, 512, 512]⟩ : Shape).Idx → EReal)
    (b : (⟨2, ![8, 512]⟩ : Shape).Idx → EReal) (e : Fin 8) (r : Fin M) (o : Fin 512) : EReal :=
  (∑ k : Fin 512, x (ix2 r k) * w (ix3 e k o)) + b (ix2 e o)

/-- One kept term: `y` where the selector is the expert's number `k`, zero elsewhere. -/
def kept (sel k : BitVec 32) (y : EReal) : EReal := if sel = k then y else 0

/-- The eight kept terms added to zero, expert 0 first, expert 7 last. -/
def combine (sel : BitVec 32) (y : Fin 8 → EReal) : EReal :=
  0 + kept sel 0#32 (y 0) + kept sel 1#32 (y 1) + kept sel 2#32 (y 2) + kept sel 3#32 (y 3)
    + kept sel 4#32 (y 4) + kept sel 5#32 (y 5) + kept sel 6#32 (y 6) + kept sel 7#32 (y 7)

/-- The routed result over `M` rows, entry by entry. -/
def routed {M : Nat} (x : (⟨2, ![M, 512]⟩ : Shape).Idx → EReal) (sel : Fin M → BitVec 32)
    (w : (⟨3, ![8, 512, 512]⟩ : Shape).Idx → EReal) (b : (⟨2, ![8, 512]⟩ : Shape).Idx → EReal) :
    (⟨2, ![M, 512]⟩ : Shape).Idx → EReal :=
  fun i => combine (sel (i 0)) (fun e => affine x w b e (i 0) (i 1))

/-- The routed result at an entry named by its coordinates. -/
theorem routed_ix2 {M : Nat} (x : (⟨2, ![M, 512]⟩ : Shape).Idx → EReal) (sel : Fin M → BitVec 32)
    (w : (⟨3, ![8, 512, 512]⟩ : Shape).Idx → EReal) (b : (⟨2, ![8, 512]⟩ : Shape).Idx → EReal) (r : Fin M) (o : Fin 512) :
    routed x sel w b (ix2 r o) = combine (sel r) (fun e => affine x w b e r o) := rfl

/-- A row's result depends on that row of `x` and on its selector only: rows `p` of a block and `r` of the whole
    array that hold the same numbers and the same selector get the same result. -/
theorem routed_row {M M' : Nat} (X : (⟨2, ![M, 512]⟩ : Shape).Idx → EReal) (SEL : Fin M → BitVec 32)
    (x0 : (⟨2, ![M', 512]⟩ : Shape).Idx → EReal) (sel0 : Fin M' → BitVec 32)
    (w : (⟨3, ![8, 512, 512]⟩ : Shape).Idx → EReal) (b : (⟨2, ![8, 512]⟩ : Shape).Idx → EReal)
    (p : Fin M') (r : Fin M) (o : Fin 512) (hx : ∀ k, x0 (ix2 p k) = X (ix2 r k)) (hs : sel0 p = SEL r) :
    routed x0 sel0 w b (ix2 p o) = routed X SEL w b (ix2 r o) := by
  rw [routed_ix2, routed_ix2, hs]
  unfold affine
  simp only [hx]

/-- The indicator of "selector = k" as a number (the comparison's bit widened to a word and read as an integer)
    times `y` is the kept term: `1 · y = y`, `0 · y = 0` on every extended real. -/
theorem indicator_mul (sel k : BitVec 32) (y : EReal) :
    ((((IntOp.cmpi .eq sel k).setWidth 32).toInt : ℝ) : EReal) * y = kept sel k y := by
  unfold kept IntOp.cmpi
  by_cases h : sel = k
  · subst h
    rw [if_pos rfl]
    simp
  · rw [if_neg h]
    have hb : (sel == k) = false := by simpa using h
    simp [hb]

/-- A select between `y` and zero on "selector = k" is the kept term. -/
theorem select_zero_eq (sel k : BitVec 32) (y : EReal) :
    Scalar.select (IntOp.cmpi .eq sel k) y 0 = kept sel k y := by
  unfold kept IntOp.cmpi Scalar.select
  by_cases h : sel = k
  · subst h
    simp
  · have hb : (sel == k) = false := by simpa using h
    simp [hb, h]

end Routed

end
-- ==== Proof.RoutedOps.lean ====
/-
  The operations both programs build a kept term from, each read at one entry.

  Everything is stated once for an arbitrary expert number `e` (its word `k`) and an arbitrary number of rows `M`:
  the expert's weight matrix is slab `e` of the [8, 512, 512] stack seen as a [512, 512] matrix; its bias row is row
  `e` of the [8, 512] table spread over all rows; the test is the comparison "selector = k" spread over the columns.
  One program cuts slabs by slicing and the other by loading a sub-rectangle; one spreads by naming the target axes
  and the other by trailing alignment. At an entry they read the same element.
-/
import Idealize.ShloMosaic.Lib.ValueIdx
import Idealize.ShloMosaic.Lib.Pipeline.Value
import Idealize.ShloMosaic.PureOps.Ideal.Laws
import proofs.«405308_j5669356832630_3_alg».proof.Proof.LibPlainDot
import proofs.«405308_j5669356832630_3_alg».proof.Proof.Routed

noncomputable section

open scoped BigOperators

namespace Routed

open Idealize.ShloMosaic Idealize.ShloMosaic.ValueIdx

/-- `M` rows of 512 columns. -/
abbrev Rows (M : Nat) : Shape := ⟨2, ![M, 512]⟩
/-- A column of `M` selectors. -/
abbrev Col (M : Nat) : Shape := ⟨2, ![M, 1]⟩
/-- The eight weight matrices stacked, one slab, and one matrix. -/
abbrev W8 : Shape := ⟨3, ![8, 512, 512]⟩
abbrev W1 : Shape := ⟨3, ![1, 512, 512]⟩
abbrev Wm : Shape := ⟨2, ![512, 512]⟩
/-- The eight bias rows, one row kept as a [1, 512] table, and one row as a vector. -/
abbrev B8 : Shape := ⟨2, ![8, 512]⟩
abbrev B1 : Shape := ⟨2, ![1, 512]⟩
abbrev Bv : Shape := ⟨1, ![512]⟩
/-- The scalar shape. -/
abbrev Sc : Shape := ⟨0, ![]⟩

section Layout
variable {α : Type}

/-! ## Slab `e` of the weights as a matrix -/

/-- Cut by a slice: entry (k, o) of the matrix is `w[e, k, o]`. -/
theorem slab_slice (e : Fin 8) (w : W8.Idx → α) (hs : W8.Slices ![e.val, 0, 0] W1) (hc : W1.ShapeCasts Wm) (k o : Fin 512) :
    shapeCast Wm (extractStridedSlice W1 ![e.val, 0, 0] w hs) hc (ix2 k o) = w (ix3 e k o) := by
  refine (shapeCast_apply _ hc (ix2 k o) (ix3 (⟨0, Nat.one_pos⟩ : Fin 1) k o) ?_).trans ?_
  · rw [Shape.rowMajor_val_three, Shape.rowMajor_val_two]
    show (0 * 512 + k.val) * 512 + o.val = k.val * 512 + o.val
    omega
  · exact extractStridedSlice_apply _ w hs _ (ix3 e k o) (fun a => match a with
      | ⟨0, _⟩ => by show e.val = e.val + 0; omega
      | ⟨1, _⟩ => by show k.val = 0 + k.val; omega
      | ⟨2, _⟩ => by show o.val = 0 + o.val; omega)

/-- Cut by loading the sub-rectangle at offset (e, 0, 0): the same entry. -/
theorem slab_load {Val : EltTy → Type} {ε : EltTy} (e : Fin 8) (w : W8.Idx → Val ε) (inb : ∀ a, (![e.val, 0, 0] : Fin 3 → Nat) a + W1.size a ≤ W8.size a)
    (hc : W1.ShapeCasts Wm) (k o : Fin 512) :
    shapeCast Wm (View.ld w (Rect.unit (s := W8) ![e.val, 0, 0] W1.size inb)) hc (ix2 k o) = w (ix3 e k o) := by
  refine (shapeCast_apply _ hc (ix2 k o) (ix3 (⟨0, Nat.one_pos⟩ : Fin 1) k o) ?_).trans ?_
  · rw [Shape.rowMajor_val_three, Shape.rowMajor_val_two]
    show (0 * 512 + k.val) * 512 + o.val = k.val * 512 + o.val
    omega
  · show w ((Rect.unit (s := W8) ![e.val, 0, 0] W1.size inb).idx (ix3 (⟨0, Nat.one_pos⟩ : Fin 1) k o)) = w (ix3 e k o)
    refine congrArg w (funext fun a => Fin.ext ?_)
    match a with
    | ⟨0, _⟩ => show e.val + 1 * 0 = e.val; omega
    | ⟨1, _⟩ => show 0 + 1 * k.val = k.val; omega
    | ⟨2, _⟩ => show 0 + 1 * o.val = o.val; omega

/-! ## Row `e` of the biases spread over all rows -/

/-- Cut by a slice, made a vector, and spread by naming the target axes: entry (r, o) is `b[e, o]`. -/
theorem biasRow_slice {M : Nat} (e : Fin 8) (b : B8.Idx → α) (hs : B8.Slices ![e.val, 0] B1) (hc : B1.ShapeCasts Bv)
    (h1 : Bv.BroadcastsInDim B1 ![1]) (h2 : B1.BroadcastsInDim (Rows M) ![0, 1]) (r : Fin M) (o : Fin 512) :
    broadcastInDim (Rows M) ![0, 1] h2 (broadcastInDim B1 ![1] h1 (shapeCast Bv (extractStridedSlice B1 ![e.val, 0] b hs) hc))
      (ix2 r o) = b (ix2 e o) := by
  refine (broadcastInDim_apply _ h2 _ (ix2 r o) (ix2 (⟨0, Nat.one_pos⟩ : Fin 1) o) (fun a => match a with
      | ⟨0, _⟩ => by show 0 = if (1 : Nat) = 1 then 0 else r.val; rw [if_pos rfl]
      | ⟨1, _⟩ => by show o.val = if (512 : Nat) = 1 then 0 else o.val; rw [if_neg (by decide)])).trans ?_
  refine (broadcastInDim_apply _ h1 _ (ix2 (⟨0, Nat.one_pos⟩ : Fin 1) o) (ix1 o) (fun a => match a with
      | ⟨0, _⟩ => by show o.val = if (512 : Nat) = 1 then 0 else o.val; rw [if_neg (by decide)])).trans ?_
  refine (shapeCast_apply _ hc (ix1 o) (ix2 (⟨0, Nat.one_pos⟩ : Fin 1) o) ?_).trans ?_
  · rw [Shape.rowMajor_val_two, Shape.rowMajor_val_one]
    show 0 * 512 + o.val = o.val
    omega
  · exact extractStridedSlice_apply _ b hs _ (ix2 e o) (fun a => match a with
      | ⟨0, _⟩ => by show e.val = e.val + 0; omega
      | ⟨1, _⟩ => by show o.val = 0 + o.val; omega)

/-- Cut by loading the sub-rectangle at offset (e, 0), made a vector and a one-row table again, and spread by trailing
    alignment: the same entry. -/
theorem biasRow_load {Val : EltTy → Type} {ε : EltTy} {M : Nat} (e : Fin 8) (b : B8.Idx → Val ε)
    (inb : ∀ a, (![e.val, 0] : Fin 2 → Nat) a + B1.size a ≤ B8.size a) (hc1 : B1.ShapeCasts Bv) (hc2 : Bv.ShapeCasts B1)
    (hbt : B1.Broadcasts (Rows M)) (p : Fin M) (q : Fin 512) :
    broadcastTo (Rows M) (shapeCast B1 (shapeCast Bv (View.ld b (Rect.unit (s := B8) ![e.val, 0] B1.size inb)) hc1) hc2) hbt
      (ix2 p q) = b (ix2 e q) := by
  rw [shapeCast_shapeCast]
  refine (broadcastTo_apply _ hbt (ix2 p q) (ix2 (⟨0, Nat.one_pos⟩ : Fin 1) q) (fun a => match a with
      | ⟨0, _⟩ => by show 0 = if (1 : Nat) = 1 then 0 else _; rw [if_pos rfl]
      | ⟨1, _⟩ => by show q.val = if (512 : Nat) = 1 then 0 else q.val; rw [if_neg (by decide)])).trans ?_
  show b ((Rect.unit (s := B8) ![e.val, 0] B1.size inb).idx (ix2 (⟨0, Nat.one_pos⟩ : Fin 1) q)) = b (ix2 e q)
  refine congrArg b (funext fun a => Fin.ext ?_)
  match a with
  | ⟨0, _⟩ => show e.val + 1 * 0 = e.val; omega
  | ⟨1, _⟩ => show 0 + 1 * q.val = q.val; omega

end Layout

/-! ## The test: "selector = k", spread over the columns -/

/-- Compared against the word `k` spread over the rows, then spread over the columns by naming the axes: at entry
    (r, o) the comparison of row `r`'s selector with `k`. -/
theorem test_rows {M : Nat} (k : BitVec 32) (sel : (⟨1, ![M]⟩ : Shape).Idx → BitVec 32)
    (h0 : Sc.BroadcastsInDim ⟨1, ![M]⟩ ![]) (h1 : (⟨1, ![M]⟩ : Shape).BroadcastsInDim (Col M) ![0])
    (h2 : (Col M).BroadcastsInDim (Rows M) ![0, 1]) (r : Fin M) (o : Fin 512) :
    broadcastInDim (Rows M) ![0, 1] h2 (broadcastInDim (Col M) ![0] h1
      (cmpi .eq sel (broadcastInDim ⟨1, ![M]⟩ ![] h0 (constantI Sc 32 k)))) (ix2 r o)
      = IntOp.cmpi .eq (sel (ix1 r)) k := by
  have hr : r.val < M := r.isLt
  refine (broadcastInDim_apply _ h2 _ (ix2 r o) (ix2 r (⟨0, Nat.one_pos⟩ : Fin 1)) (fun a => match a with
      | ⟨0, _⟩ => by show r.val = if M = 1 then 0 else r.val; split <;> omega
      | ⟨1, _⟩ => by show 0 = if (1 : Nat) = 1 then 0 else o.val; rw [if_pos rfl])).trans ?_
  refine (broadcastInDim_apply _ h1 _ (ix2 r (⟨0, Nat.one_pos⟩ : Fin 1)) (ix1 r) (fun a => match a with
      | ⟨0, _⟩ => by show r.val = if M = 1 then 0 else r.val; split <;> omega)).trans ?_
  show IntOp.cmpi .eq (sel (ix1 r)) (broadcastInDim ⟨1, ![M]⟩ ![] h0 (constantI Sc 32 k) (ix1 r)) = _
  rw [broadcastInDim_apply _ h0 _ (ix1 r) ix0 (fun a => a.elim0)]
  rfl

/-- Compared against the lane number along eight lanes, made a number, lane `e` taken and spread over the columns by
    trailing alignment: at entry (p, q) the indicator of "row `p`'s selector = e" as a number. -/
theorem test_lanes {M : Nat} (e : Fin 8) (v : (Col M).Idx → BitVec 32) (hsc : (Col M).ShapeCasts (Col M))
    (hio : (⟨2, ![M, 8]⟩ : Shape).Iotas .tc 32 [1]) (hb8 : (Col M).Broadcasts ⟨2, ![M, 8]⟩) (hlt : 1 < 32)
    (hsl : (⟨2, ![M, 8]⟩ : Shape).Slices ![0, e.val] (Col M)) (hbt : (Col M).Broadcasts (Rows M)) (p : Fin M) (q : Fin 512) :
    broadcastTo (Rows M) (extractStridedSlice (Col M) ![0, e.val]
        (sitofp (F := Ideal) .f32 (extui 32 (cmpi .eq (broadcastTo ⟨2, ![M, 8]⟩ (shapeCast (Col M) v hsc) hb8)
          (iota .tc ⟨2, ![M, 8]⟩ 32 [1] hio)) hlt)) hsl) hbt (ix2 p q)
      = ((((IntOp.cmpi .eq (v (ix2 p (⟨0, Nat.one_pos⟩ : Fin 1))) (BitVec.ofNat 32 e.val)).setWidth 32).toInt : ℝ) : EReal) := by
  have hp : p.val < M := p.isLt
  rw [shapeCast_self]
  refine (broadcastTo_apply _ hbt (ix2 p q) (ix2 p (⟨0, Nat.one_pos⟩ : Fin 1)) (fun a => match a with
      | ⟨0, _⟩ => by show p.val = if M = 1 then 0 else p.val; split <;> omega
      | ⟨1, _⟩ => by show 0 = if (1 : Nat) = 1 then 0 else _; rw [if_pos rfl])).trans ?_
  refine (extractStridedSlice_apply _ _ hsl (ix2 p (⟨0, Nat.one_pos⟩ : Fin 1)) (ix2 p e) (fun a => match a with
      | ⟨0, _⟩ => by show p.val = 0 + p.val; omega
      | ⟨1, _⟩ => by show e.val = e.val + 0; omega)).trans ?_
  show ((((IntOp.cmpi .eq (broadcastTo ⟨2, ![M, 8]⟩ v hb8 (ix2 p e)) (iota .tc ⟨2, ![M, 8]⟩ 32 [1] hio (ix2 p e))).setWidth 32).toInt : ℝ) : EReal) = _
  rw [iota_single_apply, broadcastTo_apply v hb8 (ix2 p e) (ix2 p (⟨0, Nat.one_pos⟩ : Fin 1)) (fun a => match a with
      | ⟨0, _⟩ => by show p.val = if M = 1 then 0 else p.val; split <;> omega
      | ⟨1, _⟩ => by show 0 = if (1 : Nat) = 1 then 0 else _; rw [if_pos rfl])]
  rfl

/-! ## One kept term, as each program spells it -/

/-- By a select: the test chooses between expert `e`'s affine value (the product with slab `e`, plus bias row `e`)
    and zero. At entry (r, o) this is the kept term of row `r`'s selector against `k`. -/
theorem term_select {M : Nat} (e : Fin 8) (k : BitVec 32) (d : DotDims (Rows M) Wm (Rows M)) (hd : PlainDot.IsPlain d)
    (x : FVec Ideal (Rows M) .f32) (sel : (⟨1, ![M]⟩ : Shape).Idx → BitVec 32) (w : FVec Ideal W8 .f32) (b : FVec Ideal B8 .f32)
    (hws : W8.Slices ![e.val, 0, 0] W1) (hwc : W1.ShapeCasts Wm) (hbs : B8.Slices ![e.val, 0] B1) (hbc : B1.ShapeCasts Bv)
    (hb1 : Bv.BroadcastsInDim B1 ![1]) (hb2 : B1.BroadcastsInDim (Rows M) ![0, 1])
    (h0 : Sc.BroadcastsInDim ⟨1, ![M]⟩ ![]) (h1 : (⟨1, ![M]⟩ : Shape).BroadcastsInDim (Col M) ![0])
    (h2 : (Col M).BroadcastsInDim (Rows M) ![0, 1]) (hz : Sc.BroadcastsInDim (Rows M) ![]) (r : Fin M) (o : Fin 512) :
    select (broadcastInDim (Rows M) ![0, 1] h2 (broadcastInDim (Col M) ![0] h1
        (cmpi .eq sel (broadcastInDim ⟨1, ![M]⟩ ![] h0 (constantI Sc 32 k)))))
      (addf (Host.dotGeneral d none x (shapeCast Wm (extractStridedSlice W1 ![e.val, 0, 0] w hws) hwc))
        (broadcastInDim (Rows M) ![0, 1] hb2 (broadcastInDim B1 ![1] hb1 (shapeCast Bv (extractStridedSlice B1 ![e.val, 0] b hbs) hbc))))
      (broadcastInDim (Rows M) ![] hz (constant (F := Ideal) Sc .f32 0x00000000#32)) (ix2 r o)
      = kept (sel (ix1 r)) k (affine x w b e r o) := by
  rw [select_apply, test_rows k sel h0 h1 h2 r o, addf_apply, biasRow_slice e b hbs hbc hb1 hb2 r o,
    broadcastInDim_apply _ hz _ (ix2 r o) ix0 (fun a => a.elim0), constant_apply, Ideal.ofBits_zero_f32]
  simp only [Host.dotGeneral]
  rw [PlainDot.dotGeneral_apply d hd]
  simp only [slab_slice e w hws hwc]
  exact select_zero_eq _ _ _

/-- By a product: the test made a number multiplies expert `e`'s affine value (the product, into a zero accumulator,
    of the rows narrowed to a shorter format — the identity on extended reals — with slab `e`, plus bias row `e`).
    At entry (p, q) this is the kept term of row `p`'s selector against the word of `e`. -/
theorem term_mul {M : Nat} (e : Fin 8) (d : DotDims (Rows M) Wm (Rows M)) (hd : PlainDot.IsPlain d)
    (x : FVec Ideal (Rows M) .f32) (v : Vec Ideal (Col M) .i32) (w : Vec Ideal W8 .bf16) (b : Vec Ideal B8 .f32)
    (hnar : FTy.bits .bf16 < FTy.bits .f32)
    (inbw : ∀ a, (![e.val, 0, 0] : Fin 3 → Nat) a + W1.size a ≤ W8.size a) (hwc : W1.ShapeCasts Wm)
    (inbb : ∀ a, (![e.val, 0] : Fin 2 → Nat) a + B1.size a ≤ B8.size a) (hc1 : B1.ShapeCasts Bv) (hc2 : Bv.ShapeCasts B1)
    (hbb : B1.Broadcasts (Rows M)) (hsc : (Col M).ShapeCasts (Col M)) (hio : (⟨2, ![M, 8]⟩ : Shape).Iotas .tc 32 [1])
    (hb8 : (Col M).Broadcasts ⟨2, ![M, 8]⟩) (hlt : 1 < 32) (hsl : (⟨2, ![M, 8]⟩ : Shape).Slices ![0, e.val] (Col M))
    (hbt : (Col M).Broadcasts (Rows M)) (p : Fin M) (q : Fin 512) :
    mulf (broadcastTo (Rows M) (extractStridedSlice (Col M) ![0, e.val]
          (sitofp (F := Ideal) .f32 (extui 32 (cmpi .eq (broadcastTo ⟨2, ![M, 8]⟩ (shapeCast (Col M) v hsc) hb8)
            (iota .tc ⟨2, ![M, 8]⟩ 32 [1] hio)) hlt)) hsl) hbt)
      (addf (matmul d none (truncf .bf16 x hnar)
            (shapeCast Wm (View.ld w (Rect.unit (s := W8) ![e.val, 0, 0] W1.size inbw)) hwc : FVec Ideal Wm .bf16)
            (constant (Rows M) .f32 0x00000000#32))
        (broadcastTo (Rows M) (shapeCast B1 (shapeCast Bv (View.ld b (Rect.unit (s := B8) ![e.val, 0] B1.size inbb)) hc1) hc2) hbb))
      (ix2 p q)
      = kept (v (ix2 p (⟨0, Nat.one_pos⟩ : Fin 1))) (BitVec.ofNat 32 e.val) (affine x w b e p q) := by
  rw [mulf_apply, test_lanes e v hsc hio hb8 hlt hsl hbt p q, addf_apply, biasRow_load e b inbb hc1 hc2 hbb p q]
  simp only [matmul]
  rw [PlainDot.matmul_zero_apply d hd]
  simp only [slab_load e w inbw hwc, truncf_apply]
  exact indicator_mul _ _ _

end Routed

end
-- ==== Proof.KernelBlock.lean ====
/-
  What the kernel's body leaves in its output buffer at one grid point.

  The body loads its block of rows and their selectors whole, and for each expert 0 … 7 loads the expert's slab of
  the weights and its bias row, forms the expert's affine value of every row of the block, multiplies it by the
  indicator "selector = expert" made a number, and adds the product to a running sum that starts at zero. The one
  store writes that sum over the whole buffer. Entry by entry the buffer therefore holds `Routed.routed` of the four
  input blocks: each product at an entry is one kept term (`Routed.term_mul`, at the expert's own rectangles), and
  the running sum adds them in the order 0, 1, …, 7.
-/
import proofs.«405308_j5669356832630_3_alg».proof.Proof.Gen.KernelIdeal.Frame
import proofs.«405308_j5669356832630_3_alg».proof.Proof.RoutedOps

noncomputable section

namespace Cert.KernelIdeal.Block

open Cert.KernelIdeal Cert.KernelIdeal.Gen Idealize.ShloMosaic Idealize.ShloMosaic.ValueIdx

/-- The kernel's product contracts the rows' axis 1 with a matrix's axis 0 and has no batch axes. -/
theorem plain : PlainDot.IsPlain (M := 2048) (K := 512) (N := 512) dot_S2048x512_S512x512_S2048x512_1_0_0_1_n_n :=
  ⟨rfl, rfl, rfl, rfl, rfl, rfl⟩

/-- The zero offsets of a whole-buffer access. -/
theorem zero2 : (![0, 0] : Fin 2 → Nat) = fun _ => 0 := funext fun a => by fin_cases a <;> rfl

/-- THE BODY'S OUTPUT BLOCK is the routed result of its input blocks; row `p`'s selector is entry (p, 0) of the
    selector column. -/
theorem out_routed (x0 : Vec Ideal S2048x512 .f32) (x1 : Vec Ideal S2048x1 .i32) (x2 : Vec Ideal S8x512x512 .bf16)
    (x3 : Vec Ideal S8x512 .f32) :
    out0_4 (F := Ideal) x0 x1 x2 x3
      = Routed.routed (M := 2048) x0 (fun p => x1 (ix2 p (⟨0, Nat.one_pos⟩ : Fin 1))) x2 x3 := by
  unfold out0_4
  rw [View.canon_unit_zero zero2]
  simp only [View.ld_unit_zero (S := S2048x512) zero2, View.ld_unit_zero (S := S2048x1) zero2]
  funext j
  obtain ⟨p, q, rfl⟩ : ∃ (p : Fin 2048) (q : Fin 512), j = ix2 p q := ⟨j 0, j 1, eq_ix2 j⟩
  -- the eight products at this entry, each one kept term
  have t0 := Routed.term_mul (M := 2048) 0 dot_S2048x512_S512x512_S2048x512_1_0_0_1_n_n plain x0 x1 x2 x3 bitsLt_bf16_f32
    inb_S8x512x512_S1x512x512_0_0_0 shapeCasts_S1x512x512_S512x512 inb_S8x512_S1x512_0_0 shapeCasts_S1x512_S512 shapeCasts_S512_S1x512
    broadcasts_S1x512_S2048x512 shapeCasts_S2048x1_S2048x1 iota_S2048x8_d1_w32 broadcasts_S2048x1_S2048x8 natLt_1_32
    slices_S2048x8_o0_0_S2048x1 broadcasts_S2048x1_S2048x512 p q
  have t1 := Routed.term_mul (M := 2048) 1 dot_S2048x512_S512x512_S2048x512_1_0_0_1_n_n plain x0 x1 x2 x3 bitsLt_bf16_f32
    inb_S8x512x512_S1x512x512_1_0_0 shapeCasts_S1x512x512_S512x512 inb_S8x512_S1x512_1_0 shapeCasts_S1x512_S512 shapeCasts_S512_S1x512
    broadcasts_S1x512_S2048x512 shapeCasts_S2048x1_S2048x1 iota_S2048x8_d1_w32 broadcasts_S2048x1_S2048x8 natLt_1_32
    slices_S2048x8_o0_1_S2048x1 broadcasts_S2048x1_S2048x512 p q
  have t2 := Routed.term_mul (M := 2048) 2 dot_S2048x512_S512x512_S2048x512_1_0_0_1_n_n plain x0 x1 x2 x3 bitsLt_bf16_f32
    inb_S8x512x512_S1x512x512_2_0_0 shapeCasts_S1x512x512_S512x512 inb_S8x512_S1x512_2_0 shapeCasts_S1x512_S512 shapeCasts_S512_S1x512
    broadcasts_S1x512_S2048x512 shapeCasts_S2048x1_S2048x1 iota_S2048x8_d1_w32 broadcasts_S2048x1_S2048x8 natLt_1_32
    slices_S2048x8_o0_2_S2048x1 broadcasts_S2048x1_S2048x512 p q
  have t3 := Routed.term_mul (M := 2048) 3 dot_S2048x512_S512x512_S2048x512_1_0_0_1_n_n plain x0 x1 x2 x3 bitsLt_bf16_f32
    inb_S8x512x512_S1x512x512_3_0_0 shapeCasts_S1x512x512_S512x512 inb_S8x512_S1x512_3_0 shapeCasts_S1x512_S512 shapeCasts_S512_S1x512
    broadcasts_S1x512_S2048x512 shapeCasts_S2048x1_S2048x1 iota_S2048x8_d1_w32 broadcasts_S2048x1_S2048x8 natLt_1_32
    slices_S2048x8_o0_3_S2048x1 broadcasts_S2048x1_S2048x512 p q
  have t4 := Routed.term_mul (M := 2048) 4 dot_S2048x512_S512x512_S2048x512_1_0_0_1_n_n plain x0 x1 x2 x3 bitsLt_bf16_f32
    inb_S8x512x512_S1x512x512_4_0_0 shapeCasts_S1x512x512_S512x512 inb_S8x512_S1x512_4_0 shapeCasts_S1x512_S512 shapeCasts_S512_S1x512
    broadcasts_S1x512_S2048x512 shapeCasts_S2048x1_S2048x1 iota_S2048x8_d1_w32 broadcasts_S2048x1_S2048x8 natLt_1_32
    slices_S2048x8_o0_4_S2048x1 broadcasts_S2048x1_S2048x512 p q
  have t5 := Routed.term_mul (M := 2048) 5 dot_S2048x512_S512x512_S2048x512_1_0_0_1_n_n plain x0 x1 x2 x3 bitsLt_bf16_f32
    inb_S8x512x512_S1x512x512_5_0_0 shapeCasts_S1x512x512_S512x512 inb_S8x512_S1x512_5_0 shapeCasts_S1x512_S512 shapeCasts_S512_S1x512
    broadcasts_S1x512_S2048x512 shapeCasts_S2048x1_S2048x1 iota_S2048x8_d1_w32 broadcasts_S2048x1_S2048x8 natLt_1_32
    slices_S2048x8_o0_5_S2048x1 broadcasts_S2048x1_S2048x512 p q
  have t6 := Routed.term_mul (M := 2048) 6 dot_S2048x512_S512x512_S2048x512_1_0_0_1_n_n plain x0 x1 x2 x3 bitsLt_bf16_f32
    inb_S8x512x512_S1x512x512_6_0_0 shapeCasts_S1x512x512_S512x512 inb_S8x512_S1x512_6_0 shapeCasts_S1x512_S512 shapeCasts_S512_S1x512
    broadcasts_S1x512_S2048x512 shapeCasts_S2048x1_S2048x1 iota_S2048x8_d1_w32 broadcasts_S2048x1_S2048x8 natLt_1_32
    slices_S2048x8_o0_6_S2048x1 broadcasts_S2048x1_S2048x512 p q
  have t7 := Routed.term_mul (M := 2048) 7 dot_S2048x512_S512x512_S2048x512_1_0_0_1_n_n plain x0 x1 x2 x3 bitsLt_bf16_f32
    inb_S8x512x512_S1x512x512_7_0_0 shapeCasts_S1x512x512_S512x512 inb_S8x512_S1x512_7_0 shapeCasts_S1x512_S512 shapeCasts_S512_S1x512
    broadcasts_S1x512_S2048x512 shapeCasts_S2048x1_S2048x1 iota_S2048x8_d1_w32 broadcasts_S2048x1_S2048x8 natLt_1_32
    slices_S2048x8_o0_7_S2048x1 broadcasts_S2048x1_S2048x512 p q
  -- the running sum starts at zero
  have z : broadcast S2048x512 (Scalar.ofBits (F := Ideal) .f32 0x00000000#32) (ix2 p q) = 0 := Ideal.ofBits_zero_f32
  refine Eq.trans ?_ (Routed.routed_ix2 _ _ _ _ p q).symm
  unfold Routed.combine
  exact congrArg₂ (· + ·) (congrArg₂ (· + ·) (congrArg₂ (· + ·) (congrArg₂ (· + ·) (congrArg₂ (· + ·)
    (congrArg₂ (· + ·) (congrArg₂ (· + ·) (congrArg₂ (· + ·) z t0) t1) t2) t3) t4) t5) t6) t7

end Cert.KernelIdeal.Block

end
-- ==== Proof.KernelWhole.lean ====
/-
  The kernel's result array, whole.

  The grid has sixteen points; point `t` works on rows `2048·t … 2048·t + 2047`. Its block of `x` is those rows of the
  argument, its selector column is those entries of `index` (the column the region finds is `index` reshaped to
  [32768, 1]), and the weights and biases it sees are the whole arguments (the weights narrowed to a shorter format
  before the region, which is the identity on extended reals). The routed result of a row depends on that row and its
  selector only (`Routed.routed_row`), so what point `t` writes back is block `t` of ONE function of the arguments,
  `Routed.routed` over all 32768 rows. The sixteen blocks cover the array (row `r` lies in block `r / 2048`), so the
  array ends holding that function.
-/
import proofs.«405308_j5669356832630_3_alg».proof.Proof.Gen.KernelIdeal.Value
import proofs.«405308_j5669356832630_3_alg».proof.Proof.KernelBlock
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result array as one function of the four arguments: the routed result over all rows, row `r`'s selector
    being `index[r]`. -/
abbrev G (c : Dev nD) : Buf (Elt Ideal) ((c : Thread nD τ).loc main_v2) :=
  Routed.routed (M := 32768) (m ((c : Thread nD τ).loc main_arg0)) (fun r => m ((c : Thread nD τ).loc main_arg1) (ix1 r))
    (m ((c : Thread nD τ).loc main_arg2)) (m ((c : Thread nD τ).loc main_arg3))

/-! ## Where each window's block sits, decided over the sixteen points -/

/-- The row windows (rows of `x`, the selector column, the result) move one block down per point; the weights and
    the biases stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The arrays the region finds that a host operation wrote -/

/-- The selector column is `index` reshaped to [32768, 1]. -/
theorem sel_found (c : Dev nD) : (V m c main_v0 : S32768x1.Idx → BitVec 32)
    = shapeCast S32768x1 (m ((c : Thread nD τ).loc main_arg1)) shapeCasts_S32768_S32768x1 := by
  dsimp only [Gen.V, Gen.hostOps0]
  after_results
  rfl

/-- The weights are the argument narrowed to the shorter format. -/
theorem w_found (c : Dev nD) : (V m c main_v1 : S8x512x512.Idx → EReal)
    = truncf (F := Ideal) .bf16 (m ((c : Thread nD τ).loc main_arg2)) bitsLt_bf16_f32 := by
  dsimp only [Gen.V, Gen.hostOps0]
  after_results

/-! ## Each input block at point `t`, as entries of the arguments -/

/-- Row `p` of point `t`'s block of `x` is row `2048·t + p` of the argument. -/
theorem rows_block (c : Dev nD) (t : Fin cfg0.N) (p : Fin 2048) (k : Fin 512) (r : Fin 32768) (hr : r.val = t.val * 2048 + p.val) :
    (iblk m c 0 t : Vec Ideal S2048x512 .f32) (ix2 p k)
      = (m ((c : Thread nD τ).loc main_arg0) : S32768x512.Idx → EReal) (ix2 r k) := by
  obtain ⟨h0, h1, -⟩ := idx_facts t
  unfold iblk
  rw [View.read_apply]
  show V m c main_arg0 _ = _
  rw [V_main_arg0]
  congr 1
  funext a
  apply Fin.ext
  match a with
  | ⟨0, _⟩ => show win0_0.index t 0 * 2048 + 1 * p.val = r.val; rw [h0, hr]; omega
  | ⟨1, _⟩ => show win0_0.index t 1 * 512 + 1 * k.val = k.val; rw [h1]; omega

/-- Entry (p, 0) of point `t`'s block of the selector column is `index[2048·t + p]`. -/
theorem sel_block (c : Dev nD) (t : Fin cfg0.N) (p : Fin 2048) (r : Fin 32768) (hr : r.val = t.val * 2048 + p.val) :
    (iblk m c 1 t : Vec Ideal S2048x1 .i32) (ix2 p (⟨0, Nat.one_pos⟩ : Fin 1))
      = (m ((c : Thread nD τ).loc main_arg1) : S32768.Idx → BitVec 32) (ix1 r) := by
  obtain ⟨-, -, h0, h1, -⟩ := idx_facts t
  unfold iblk
  rw [View.read_apply]
  show V m c main_v0 _ = _
  rw [sel_found]
  refine shapeCast_apply _ shapeCasts_S32768_S32768x1 _ (ix1 r) ?_
  rw [Shape.rowMajor_val_one, Shape.rowMajor_val_two]
  show r.val = (win0_1.index t 0 * 2048 + 1 * p.val) * 1 + (win0_1.index t 1 * 1 + 1 * 0)
  rw [h0, h1, hr]
  omega

/-- Point `t`'s block of the weights is the whole argument (narrowing is the identity here). -/
theorem w_block (c : Dev nD) (t : Fin cfg0.N) :
    (iblk m c 2 t : Vec Ideal S8x512x512 .bf16) = (m ((c : Thread nD τ).loc main_arg2) : S8x512x512.Idx → EReal) := by
  obtain ⟨-, -, -, -, h0, h1, h2, -⟩ := idx_facts t
  funext i
  unfold iblk
  rw [View.read_apply]
  show V m c main_v1 _ = _
  rw [w_found]
  show (m ((c : Thread nD τ).loc main_arg2) : S8x512x512.Idx → EReal) _ = _
  congr 1
  funext a
  apply Fin.ext
  match a with
  | ⟨0, _⟩ => show win0_2.index t 0 * 8 + 1 * (i 0).val = (i 0).val; rw [h0]; omega
  | ⟨1, _⟩ => show win0_2.index t 1 * 512 + 1 * (i 1).val = (i 1).val; rw [h1]; omega
  | ⟨2, _⟩ => show win0_2.index t 2 * 512 + 1 * (i 2).val = (i 2).val; rw [h2]; omega

/-- Point `t`'s block of the biases is the whole argument. -/
theorem b_block (c : Dev nD) (t : Fin cfg0.N) :
    (iblk m c 3 t : Vec Ideal S8x512 .f32) = (m ((c : Thread nD τ).loc main_arg3) : S8x512.Idx → EReal) := by
  obtain ⟨-, -, -, -, -, -, -, h0, h1, -⟩ := idx_facts t
  funext i
  unfold iblk
  rw [View.read_apply]
  show V m c main_arg3 _ = _
  rw [V_main_arg3]
  congr 1
  funext a
  apply Fin.ext
  match a with
  | ⟨0, _⟩ => show win0_3.index t 0 * 8 + 1 * (i 0).val = (i 0).val; rw [h0]; omega
  | ⟨1, _⟩ => show win0_3.index t 1 * 512 + 1 * (i 1).val = (i 1).val; rw [h1]; omega

/-! ## What point `t` writes back -/

/-- The routed result of point `t`'s blocks at a block entry `y` is the whole-array function at the entry `i` that
    `y` lands on: row `2048·t + y₀`, column `y₁`. -/
theorem block_entry (c : Dev nD) (t : Fin cfg0.N) (y : S2048x512.Idx) (i : S32768x512.Idx)
    (h0 : (i 0).val = t.val * 2048 + (y 0).val) (h1 : (i 1).val = (y 1).val) :
    Routed.routed (M := 2048) (iblk m c 0 t : Vec Ideal S2048x512 .f32)
        (fun p => (iblk m c 1 t : Vec Ideal S2048x1 .i32) (ix2 p (⟨0, Nat.one_pos⟩ : Fin 1)))
        (iblk m c 2 t : Vec Ideal S8x512x512 .bf16) (iblk m c 3 t : Vec Ideal S8x512 .f32) y
      = G m c i := by
  rw [w_block, b_block, eq_ix2 y, eq_ix2 i]
  have e1 : i 1 = y 1 := Fin.ext h1
  rw [e1]
  exact Routed.routed_row _ _ _ _ _ _ (y 0) (i 0) (y 1)
    (fun k => rows_block m c t (y 0) k (i 0) h0) (sel_block m c t (y 0) (i 0) h0)

/-- WHAT POINT `t` WRITES BACK is block `t` of the whole-array function. -/
theorem flushed_eq (c : Dev nD) (t : Fin cfg0.N) :
    (dats m 0 c).flushed 4 t = ((cfg0.win 4).blk t).view.read (Elt Ideal) (G m c) := by
  obtain ⟨-, -, -, -, -, -, -, -, -, h0, h1⟩ := idx_facts t
  rw [Value.flushed4, Block.out_routed]
  funext j
  rw [View.read_apply]
  refine block_entry m c t j _ ?_ ?_
  · show win0_4.index t 0 * 2048 + 1 * (j 0).val = t.val * 2048 + (j 0).val
    rw [h0]; omega
  · show win0_4.index t 1 * 512 + 1 * (j 1).val = (j 1).val
    rw [h1]; omega

/-! ## The blocks cover the array -/

/-- An entry is in point `t`'s block iff each coordinate is in the block's range on its axis. -/
theorem mem_blk (t : Fin cfg0.N) (i : S32768x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v2).slice (win0_4.rect t)).set ↔ _
  rw [View.set_slice_whole, Rect.mem_set_unit]
  exact Iff.rfl

/-- Row `r` is in the block of point `r / 2048`, and every point writes back. -/
theorem cover (i : S32768x512.Idx) :
    ∃ t : Fin cfg0.N, (cfg0.win 4).flush t = true ∧ i ∈ ((cfg0.win 4).blk t).view.set := by
  have hi0 : (i 0).val < 32768 := (i 0).isLt
  have hi1 : (i 1).val < 512 := (i 1).isLt
  have hN : cfg0.N = 16 := N_0
  obtain ⟨t, ht⟩ : ∃ t : Fin cfg0.N, t.val = (i 0).val / 2048 := ⟨⟨(i 0).val / 2048, by rw [hN]; omega⟩, rfl⟩
  obtain ⟨-, -, -, -, -, -, -, -, -, h0, h1⟩ := idx_facts t
  refine ⟨t, flush0_4 t, ?_⟩
  rw [mem_blk]
  intro a
  match a with
  | ⟨0, _⟩ =>
    show win0_4.index t 0 * 2048 ≤ (i 0).val ∧ (i 0).val < win0_4.index t 0 * 2048 + 2048
    rw [h0, ht]; omega
  | ⟨1, _⟩ =>
    show win0_4.index t 1 * 512 ≤ (i 1).val ∧ (i 1).val < win0_4.index t 1 * 512 + 512
    rw [h1]; omega

/-- THE ARRAY after the run is the whole-array function. -/
theorem final (c : Dev nD) : (dats m 0 c).arrAt 4 cfg0.N = G m c :=
  (dats m 0 c).arrAt_eq_of_cover 4 (G m c) (fun t _ => flushed_eq m c t) cover

/-! ## The run, read -/

/-- Every weakly fair execution terminates with the result array at the routed result of the arguments, and the
    arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefRouted.lean ====
/-
  The reference computes the routed result.

  Its program builds, for each expert 0 … 7 in turn, the expert's affine value of every row (the product with the
  expert's slab of the weights plus the expert's bias row), keeps it by a select where the row's selector equals the
  expert's number and puts zero elsewhere, and adds the kept array to a running sum that starts at zero. Entry by
  entry that is `Routed.routed` of the four argument arrays: each kept array at an entry is one kept term
  (`Routed.term_select`, at the expert's own slices), and the running sum adds them in the order 0, 1, …, 7.
-/
import proofs.«405308_j5669356832630_3_alg».proof.Proof.Gen.ReferenceIdeal.Read
import proofs.«405308_j5669356832630_3_alg».proof.Proof.RoutedOps

noncomputable section

namespace Cert.ReferenceIdeal.RefValue

open Cert.ReferenceIdeal Cert.ReferenceIdeal.Gen Cert.ReferenceIdeal.Read Idealize.ShloMosaic Idealize.ShloMosaic.ValueIdx

/-- The reference's product contracts the rows' axis 1 with a matrix's axis 0 and has no batch axes. -/
theorem plain : PlainDot.IsPlain (M := 32768) (K := 512) (N := 512) dot_S32768x512_S512x512_S32768x512_1_0_0_1_n_n :=
  ⟨rfl, rfl, rfl, rfl, rfl, rfl⟩

/-- The running sum starts at zero. -/
theorem start_zero (i : S32768x512.Idx) : val_main_v0 (F := Ideal) i = 0 := by
  rw [val_main_v0_apply, val_main_cst_apply]
  exact Ideal.ofBits_zero_f32

/-- THE REFERENCE'S RESULT, as a function of its four arguments, is the routed result: `sel` row `r`'s selector is
    `index[r]`. -/
theorem result_routed (x0 : (⟨S32768x512, .f32⟩ : BufTy).Contents (Elt Ideal)) (x1 : (⟨S32768, .i32⟩ : BufTy).Contents (Elt Ideal))
    (x2 : (⟨S8x512x512, .f32⟩ : BufTy).Contents (Elt Ideal)) (x3 : (⟨S8x512, .f32⟩ : BufTy).Contents (Elt Ideal)) :
    val_main_v112 (F := Ideal) x0 x1 x2 x3 = Routed.routed (M := 32768) x0 (fun r => x1 (ix1 r)) x2 x3 := by
  funext i
  obtain ⟨r, o, rfl⟩ : ∃ (r : Fin 32768) (o : Fin 512), i = ix2 r o := ⟨i 0, i 1, eq_ix2 i⟩
  -- the eight kept arrays at this entry, each one kept term
  have t0 : val_main_v13 (F := Ideal) x0 x1 x2 x3 (ix2 r o) = Routed.kept (x1 (ix1 r)) 0#32 (Routed.affine x0 x2 x3 0 r o) :=
    Routed.term_select (M := 32768) 0 0#32 dot_S32768x512_S512x512_S32768x512_1_0_0_1_n_n plain x0 x1 x2 x3
      slices_S8x512x512_S1x512x512_0_0_0 shapeCasts_S1x512x512_S512x512 slices_S8x512_S1x512_0_0 shapeCasts_S1x512_S512
      bcast_S512_S1x512_1 bcast_S1x512_S32768x512_0_1 bcast_S_S32768 bcast_S32768_S32768x1_0 bcast_S32768x1_S32768x512_0_1
      bcast_S_S32768x512 r o
  have t1 : val_main_v27 (F := Ideal) x0 x1 x2 x3 (ix2 r o) = Routed.kept (x1 (ix1 r)) 1#32 (Routed.affine x0 x2 x3 1 r o) :=
    Routed.term_select (M := 32768) 1 1#32 dot_S32768x512_S512x512_S32768x512_1_0_0_1_n_n plain x0 x1 x2 x3
      slices_S8x512x512_S1x512x512_1_0_0 shapeCasts_S1x512x512_S512x512 slices_S8x512_S1x512_1_0 shapeCasts_S1x512_S512
      bcast_S512_S1x512_1 bcast_S1x512_S32768x512_0_1 bcast_S_S32768 bcast_S32768_S32768x1_0 bcast_S32768x1_S32768x512_0_1
      bcast_S_S32768x512 r o
  have t2 : val_main_v41 (F := Ideal) x0 x1 x2 x3 (ix2 r o) = Routed.kept (x1 (ix1 r)) 2#32 (Routed.affine x0 x2 x3 2 r o) :=
    Routed.term_select (M := 32768) 2 2#32 dot_S32768x512_S512x512_S32768x512_1_0_0_1_n_n plain x0 x1 x2 x3
      slices_S8x512x512_S1x512x512_2_0_0 shapeCasts_S1x512x512_S512x512 slices_S8x512_S1x512_2_0 shapeCasts_S1x512_S512
      bcast_S512_S1x512_1 bcast_S1x512_S32768x512_0_1 bcast_S_S32768 bcast_S32768_S32768x1_0 bcast_S32768x1_S32768x512_0_1
      bcast_S_S32768x512 r o
  have t3 : val_main_v55 (F := Ideal) x0 x1 x2 x3 (ix2 r o) = Routed.kept (x1 (ix1 r)) 3#32 (Routed.affine x0 x2 x3 3 r o) :=
    Routed.term_select (M := 32768) 3 3#32 dot_S32768x512_S512x512_S32768x512_1_0_0_1_n_n plain x0 x1 x2 x3
      slices_S8x512x512_S1x512x512_3_0_0 shapeCasts_S1x512x512_S512x512 slices_S8x512_S1x512_3_0 shapeCasts_S1x512_S512
      bcast_S512_S1x512_1 bcast_S1x512_S32768x512_0_1 bcast_S_S32768 bcast_S32768_S32768x1_0 bcast_S32768x1_S32768x512_0_1
      bcast_S_S32768x512 r o
  have t4 : val_main_v69 (F := Ideal) x0 x1 x2 x3 (ix2 r o) = Routed.kept (x1 (ix1 r)) 4#32 (Routed.affine x0 x2 x3 4 r o) :=
    Routed.term_select (M := 32768) 4 4#32 dot_S32768x512_S512x512_S32768x512_1_0_0_1_n_n plain x0 x1 x2 x3
      slices_S8x512x512_S1x512x512_4_0_0 shapeCasts_S1x512x512_S512x512 slices_S8x512_S1x512_4_0 shapeCasts_S1x512_S512
      bcast_S512_S1x512_1 bcast_S1x512_S32768x512_0_1 bcast_S_S32768 bcast_S32768_S32768x1_0 bcast_S32768x1_S32768x512_0_1
      bcast_S_S32768x512 r o
  have t5 : val_main_v83 (F := Ideal) x0 x1 x2 x3 (ix2 r o) = Routed.kept (x1 (ix1 r)) 5#32 (Routed.affine x0 x2 x3 5 r o) :=
    Routed.term_select (M := 32768) 5 5#32 dot_S32768x512_S512x512_S32768x512_1_0_0_1_n_n plain x0 x1 x2 x3
      slices_S8x512x512_S1x512x512_5_0_0 shapeCasts_S1x512x512_S512x512 slices_S8x512_S1x512_5_0 shapeCasts_S1x512_S512
      bcast_S512_S1x512_1 bcast_S1x512_S32768x512_0_1 bcast_S_S32768 bcast_S32768_S32768x1_0 bcast_S32768x1_S32768x512_0_1
      bcast_S_S32768x512 r o
  have t6 : val_main_v97 (F := Ideal) x0 x1 x2 x3 (ix2 r o) = Routed.kept (x1 (ix1 r)) 6#32 (Routed.affine x0 x2 x3 6 r o) :=
    Routed.term_select (M := 32768) 6 6#32 dot_S32768x512_S512x512_S32768x512_1_0_0_1_n_n plain x0 x1 x2 x3
      slices_S8x512x512_S1x512x512_6_0_0 shapeCasts_S1x512x512_S512x512 slices_S8x512_S1x512_6_0 shapeCasts_S1x512_S512
      bcast_S512_S1x512_1 bcast_S1x512_S32768x512_0_1 bcast_S_S32768 bcast_S32768_S32768x1_0 bcast_S32768x1_S32768x512_0_1
      bcast_S_S32768x512 r o
  have t7 : val_main_v111 (F := Ideal) x0 x1 x2 x3 (ix2 r o) = Routed.kept (x1 (ix1 r)) 7#32 (Routed.affine x0 x2 x3 7 r o) :=
    Routed.term_select (M := 32768) 7 7#32 dot_S32768x512_S512x512_S32768x512_1_0_0_1_n_n plain x0 x1 x2 x3
      slices_S8x512x512_S1x512x512_7_0_0 shapeCasts_S1x512x512_S512x512 slices_S8x512_S1x512_7_0 shapeCasts_S1x512_S512
      bcast_S512_S1x512_1 bcast_S1x512_S32768x512_0_1 bcast_S_S32768 bcast_S32768_S32768x1_0 bcast_S32768x1_S32768x512_0_1
      bcast_S_S32768x512 r o
  -- the running sum, outermost addition first
  rw [val_main_v112_apply, val_main_v98_apply, val_main_v84_apply, val_main_v70_apply, val_main_v56_apply,
    val_main_v42_apply, val_main_v28_apply, val_main_v14_apply, start_zero, t0, t1, t2, t3, t4, t5, t6, t7]
  rfl

end Cert.ReferenceIdeal.RefValue

end
-- ==== Proof.lean ====
/-
  Routing 32768 rows to one of eight affine maps: the kernel against its reference, over the extended reals.

  Both programs compute, for row `r` with selector `index[r]` and column `o`,
      0 + t₀ + t₁ + … + t₇,   t_e = (x[r, ·] · weight[e][·, o] + bias[e, o]) where index[r] = e, zero elsewhere,
  adding the eight terms to zero in the order 0, …, 7 (`Routed.routed`, Proof/Routed.lean). The reference makes each
  term by a select on "index = e"; the kernel, sixteen blocks of 2048 rows at a time, by multiplying with the
  indicator of "index = e" made a number. Since `1 · y = y` and `0 · y = 0` for every extended real `y`, the two
  agree with no use of the inputs' finiteness; a row whose selector is none of 0 … 7 gets zero from both. The
  kernel's narrowing of `x` and `weight` to a shorter float format is the identity on extended reals, and its matrix
  product into a zero accumulator and the reference's dot product are the same sum over the shared axis.

  Proof/RoutedOps.lean reads each program's spelling of one term at an entry; Proof/KernelBlock.lean shows the body's
  output block is the routed result of its input blocks, Proof/KernelWhole.lean that the sixteen written blocks make
  the routed result of the whole arguments; Proof/RefRouted.lean shows the reference's result is the same function.
  The kernel's frames are the generated ones; the reference's frame is its generated run with the result dropped; the
  idealization rewrote nothing, so there is nothing to preserve.
-/
import proofs.«405308_j5669356832630_3_alg».proof.Defs
import proofs.«405308_j5669356832630_3_alg».proof.Proof.Gen.Kernel
import proofs.«405308_j5669356832630_3_alg».proof.Proof.Gen.Kernel.Skeleton
import proofs.«405308_j5669356832630_3_alg».proof.Proof.Gen.Kernel.Launch
import proofs.«405308_j5669356832630_3_alg».proof.Proof.Gen.Kernel.Points
import proofs.«405308_j5669356832630_3_alg».proof.Proof.Gen.Kernel.Frame
import proofs.«405308_j5669356832630_3_alg».proof.Proof.Gen.KernelIdeal
import proofs.«405308_j5669356832630_3_alg».proof.Proof.Gen.KernelIdeal.Skeleton
import proofs.«405308_j5669356832630_3_alg».proof.Proof.Gen.KernelIdeal.Launch
import proofs.«405308_j5669356832630_3_alg».proof.Proof.Gen.KernelIdeal.Points
import proofs.«405308_j5669356832630_3_alg».proof.Proof.Gen.KernelIdeal.Frame
import proofs.«405308_j5669356832630_3_alg».proof.Proof.Gen.ReferenceIdeal
import proofs.«405308_j5669356832630_3_alg».proof.Proof.Gen.Pre_finite_inputs
import proofs.«405308_j5669356832630_3_alg».proof.Proof.Gen.KernelIdeal.Value
import proofs.«405308_j5669356832630_3_alg».proof.Proof.Gen.ReferenceIdeal.Run
import proofs.«405308_j5669356832630_3_alg».proof.Proof.Gen.ReferenceIdeal.Read
import proofs.«405308_j5669356832630_3_alg».proof.Proof.KernelWhole
import proofs.«405308_j5669356832630_3_alg».proof.Proof.RefRouted
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the routed result of those arguments. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v112_eq, Cert.ReferenceIdeal.RefValue.result_routed,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
